-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S19x10x256 : Shape := ⟨3, ![19, 10, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S19x10x256 : S_.BroadcastsInDim S19x10x256 (![] : Fin 0 → Fin S19x10x256.rank)
  reducesTo_S19x10x256_S_d0_1_2 : S19x10x256.ReducesTo [0, 1, 2] S_

variable [Facts]

def fn_part1 {F : FTy → Type} [FloatOps F] (main_v13 : IVec S_ 1) (main_v16 : IVec S19x10x256 1) : IVec S_ 1 :=
  let main_c_5 : IVec S_ 1 := constantI S_ 1 1#1
  let main_v17 : IVec S_ 1 := (fun x v => Host.reduce IntOp.andi x v reducesTo_S19x10x256_S_d0_1_2 h_S_) main_v16 main_c_5
  let main_v18 : IVec S_ 1 := andi main_v13 main_v17
  main_v18

def fn {F : FTy → Type} [FloatOps F] (main_arg0 : FVec F S131072x256 .f32) (main_arg1 : FVec F S131072x256 .f32) (main_arg2 : FVec F S19x10x256 .f32) (main_arg3 : FVec F S19x10x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S19x10x256 .f32 := Host.absf main_arg2
  let main_cst_2 : FVec F S_ .f32 := constant S_ .f32 0x7F800000#32
  let main_v10 : FVec F S19x10x256 .f32 := broadcastInDim S19x10x256 ![] bcast_S_S19x10x256 main_cst_2
  let main_v11 : IVec S19x10x256 1 := cmpf .olt main_v9 main_v10
  let main_c_3 : IVec S_ 1 := constantI S_ 1 1#1
  let main_v12 : IVec S_ 1 := (fun x v => Host.reduce IntOp.andi x v reducesTo_S19x10x256_S_d0_1_2 h_S_) main_v11 main_c_3
  let main_v13 : IVec S_ 1 := andi main_v8 main_v12
  let main_v14 : FVec F S19x10x256 .f32 := Host.absf main_arg3
  let main_cst_4 : FVec F S_ .f32 := constant S_ .f32 0x7F800000#32
  let main_v15 : FVec F S19x10x256 .f32 := broadcastInDim S19x10x256 ![] bcast_S_S19x10x256 main_cst_4
  let main_v16 : IVec S19x10x256 1 := cmpf .olt main_v14 main_v15
  fn_part1 (F := F) main_v13 main_v16
-- ==== Kernel.lean ====
abbrev S131072x256 : Shape := ⟨2, ![131072, 256]⟩
abbrev S19x10x256 : Shape := ⟨3, ![19, 10, 256]⟩
abbrev S190x256 : Shape := ⟨2, ![190, 256]⟩
abbrev S_ : Shape := ⟨0, ![]⟩
abbrev S190 : Shape := ⟨1, ![190]⟩
abbrev S1x190 : Shape := ⟨2, ![1, 190]⟩
abbrev S131072x190 : Shape := ⟨2, ![131072, 190]⟩
abbrev S4096x256 : Shape := ⟨2, ![4096, 256]⟩
abbrev S4096x190 : Shape := ⟨2, ![4096, 190]⟩
abbrev S4096 : Shape := ⟨1, ![4096]⟩
abbrev S4096x1 : Shape := ⟨2, ![4096, 1]⟩
abbrev S131072x19x10 : Shape := ⟨3, ![131072, 19, 10]⟩

abbrev nBuf : Space → Nat
  | .hbm => 12
  | .vmem => 9
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S19x10x256, .f32⟩
  | .hbm, ⟨3, _⟩ => ⟨S19x10x256, .f32⟩
  | .hbm, ⟨4, _⟩ => ⟨S190x256, .f32⟩
  | .hbm, ⟨5, _⟩ => ⟨S190x256, .f32⟩
  | .hbm, ⟨6, _⟩ => ⟨S190x256, .f32⟩
  | .hbm, ⟨7, _⟩ => ⟨S_, .f32⟩
  | .hbm, ⟨8, _⟩ => ⟨S190, .f32⟩
  | .hbm, ⟨9, _⟩ => ⟨S1x190, .f32⟩
  | .hbm, ⟨10, _⟩ => ⟨S131072x190, .f32⟩
  | .hbm, ⟨11, _⟩ => ⟨S131072x19x10, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S190x256, .f32⟩
  | .local _ .vmem, ⟨5, _⟩ => ⟨S190x256, .f32⟩
  | .local _ .vmem, ⟨6, _⟩ => ⟨S1x190, .f32⟩
  | .local _ .vmem, ⟨7, _⟩ => ⟨S4096x190, .f32⟩
  | .local _ .vmem, ⟨8, _⟩ => ⟨S4096x190, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S190x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S190x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x190 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x190 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S19x10x256_S190x256 : S19x10x256.ShapeCasts S190x256
  reducesTo_S190x256_S190_d1 : S190x256.ReducesTo [1] S190
  h_S_ : 0 < S_.numel
  shapeCasts_S190_S1x190 : S190.ShapeCasts S1x190
  inb_S4096x256_S4096x256_0_0 : ∀ a, (![0, 0] : Fin 2 → Nat) a + S4096x256.size a ≤ S4096x256.size a
  h_S4096x256 : 0 < S4096x256.numel
  inb_S190x256_S190x256_0_0 : ∀ a, (![0, 0] : Fin 2 → Nat) a + S190x256.size a ≤ S190x256.size a
  h_S190x256 : 0 < S190x256.numel
  shapeCasts_S190x256_S190x256 : S190x256.ShapeCasts S190x256
  inb_S1x190_S1x190_0_0 : ∀ a, (![0, 0] : Fin 2 → Nat) a + S1x190.size a ≤ S1x190.size a
  h_S1x190 : 0 < S1x190.numel
  shapeCasts_S1x190_S1x190 : S1x190.ShapeCasts S1x190
  bitsLt_bf16_f32 : FTy.bits .bf16 < FTy.bits .f32
  reduces_S4096x256_S4096 : S4096x256.Reduces [1] S4096
  shapeCasts_S4096_S4096x1 : S4096.ShapeCasts S4096x1
  broadcasts_S4096x1_S4096x190 : S4096x1.Broadcasts S4096x190
  broadcasts_S1x190_S4096x190 : S1x190.Broadcasts S4096x190
  inb_S4096x190_S4096x190_0_0 : ∀ a, (![0, 0] : Fin 2 → Nat) a + S4096x190.size a ≤ S4096x190.size a
  h_S4096x190 : 0 < S4096x190.numel
  shapeCasts_S131072x190_S131072x19x10 : S131072x190.ShapeCasts S131072x19x10
  dot_S4096x256_S190x256_S4096x190_1_1_0_0_n_n_wf : DotDims.WF S4096x256 S190x256 S4096x190 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S190x256.size a ≤ S190x256.size a
  hwx0_2 : ∀ i : grid0.Coords, EltTy.bits .f32 = 32 ∨ (Rect.block (s := S190x256) S190x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S190x256.size a ≤ S190x256.size a
  hwx0_3 : ∀ i : grid0.Coords, EltTy.bits .f32 = 32 ∨ (Rect.block (s := S190x256) S190x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x190.size a ≤ S1x190.size a
  hwx0_4 : ∀ i : grid0.Coords, EltTy.bits .f32 = 32 ∨ (Rect.block (s := S1x190) S1x190.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x190.size a ≤ S131072x190.size a
  hwx0_5 : ∀ i : grid0.Coords, EltTy.bits .f32 = 32 ∨ (Rect.block (s := S131072x190) S4096x190.size (cc0_transform_5 i) (hinb0_5 i)).WholeWords (EltTy.packing .f32)

variable [Facts₀]

def dot_S4096x256_S190x256_S4096x190_1_1_0_0_n_n : DotDims S4096x256 S190x256 S4096x190 where
  lhsContracting := [1]
  rhsContracting := [1]
  lhsNonContracting := [0]
  rhsNonContracting := [0]
  lhsBatch := []
  rhsBatch := []
  wf := dot_S4096x256_S190x256_S4096x190_1_1_0_0_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S190x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S190x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x190.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4096x190.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x256 : Shape := ⟨2, ![131072, 256]⟩
abbrev S19x10x256 : Shape := ⟨3, ![19, 10, 256]⟩
abbrev S131072x19x10 : Shape := ⟨3, ![131072, 19, 10]⟩
abbrev S_ : Shape := ⟨0, ![]⟩
abbrev S131072 : Shape := ⟨1, ![131072]⟩
abbrev S131072x1x1 : Shape := ⟨3, ![131072, 1, 1]⟩
abbrev S19x10 : Shape := ⟨2, ![19, 10]⟩
abbrev S1x19x10 : Shape := ⟨3, ![1, 19, 10]⟩

abbrev nBuf : Space → Nat
  | .hbm => 32
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S19x10x256, .f32⟩
  | .hbm, ⟨3, _⟩ => ⟨S19x10x256, .f32⟩
  | .hbm, ⟨4, _⟩ => ⟨S131072x19x10, .f32⟩
  | .hbm, ⟨5, _⟩ => ⟨S131072x256, .f32⟩
  | .hbm, ⟨6, _⟩ => ⟨S19x10x256, .f32⟩
  | .hbm, ⟨7, _⟩ => ⟨S131072x19x10, .f32⟩
  | .hbm, ⟨8, _⟩ => ⟨S_, .f32⟩
  | .hbm, ⟨9, _⟩ => ⟨S131072, .f32⟩
  | .hbm, ⟨10, _⟩ => ⟨S131072x1x1, .f32⟩
  | .hbm, ⟨11, _⟩ => ⟨S_, .f32⟩
  | .hbm, ⟨12, _⟩ => ⟨S19x10, .f32⟩
  | .hbm, ⟨13, _⟩ => ⟨S1x19x10, .f32⟩
  | .hbm, ⟨14, _⟩ => ⟨S131072x19x10, .f32⟩
  | .hbm, ⟨15, _⟩ => ⟨S131072x19x10, .f32⟩
  | .hbm, ⟨16, _⟩ => ⟨S131072x19x10, .f32⟩
  | .hbm, ⟨17, _⟩ => ⟨S_, .f32⟩
  | .hbm, ⟨18, _⟩ => ⟨S131072x19x10, .f32⟩
  | .hbm, ⟨19, _⟩ => ⟨S131072x19x10, .f32⟩
  | .hbm, ⟨20, _⟩ => ⟨S131072x19x10, .f32⟩
  | .hbm, ⟨21, _⟩ => ⟨S_, .f32⟩
  | .hbm, ⟨22, _⟩ => ⟨S131072x19x10, .f32⟩
  | .hbm, ⟨23, _⟩ => ⟨S131072x19x10, .f32⟩
  | .hbm, ⟨24, _⟩ => ⟨S_, .f32⟩
  | .hbm, ⟨25, _⟩ => ⟨S131072x19x10, .f32⟩
  | .hbm, ⟨26, _⟩ => ⟨S131072x19x10, .f32⟩
  | .hbm, ⟨27, _⟩ => ⟨S_, .f32⟩
  | .hbm, ⟨28, _⟩ => ⟨S131072x19x10, .f32⟩
  | .hbm, ⟨29, _⟩ => ⟨S131072x19x10, .f32⟩
  | .hbm, ⟨30, _⟩ => ⟨S131072x19x10, .f32⟩
  | .hbm, ⟨31, _⟩ => ⟨S131072x19x10, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S131072x256_S131072_d1 : S131072x256.ReducesTo [1] S131072
  h_S_ : 0 < S_.numel
  bcast_S131072_S131072x1x1_0 : S131072.BroadcastsInDim S131072x1x1 (![0] : Fin 1 → Fin S131072x1x1.rank)
  reducesTo_S19x10x256_S19x10_d2 : S19x10x256.ReducesTo [2] S19x10
  bcast_S19x10_S1x19x10_1_2 : S19x10.BroadcastsInDim S1x19x10 (![1, 2] : Fin 2 → Fin S1x19x10.rank)
  bcast_S131072x1x1_S131072x19x10_0_1_2 : S131072x1x1.BroadcastsInDim S131072x19x10 (![0, 1, 2] : Fin 3 → Fin S131072x19x10.rank)
  bcast_S1x19x10_S131072x19x10_0_1_2 : S1x19x10.BroadcastsInDim S131072x19x10 (![0, 1, 2] : Fin 3 → Fin S131072x19x10.rank)
  bcast_S_S131072x19x10 : S_.BroadcastsInDim S131072x19x10 (![] : Fin 0 → Fin S131072x19x10.rank)
  dot_S131072x256_S19x10x256_S131072x19x10_1_2_0_01_n_n_wf : DotDims.WF S131072x256 S19x10x256 S131072x19x10 [1] [2] [0] [0, 1] [] []

variable [Facts₀]

def dot_S131072x256_S19x10x256_S131072x19x10_1_2_0_01_n_n : DotDims S131072x256 S19x10x256 S131072x19x10 where
  lhsContracting := [1]
  rhsContracting := [2]
  lhsNonContracting := [0]
  rhsNonContracting := [0, 1]
  lhsBatch := []
  rhsBatch := []
  wf := dot_S131072x256_S19x10x256_S131072x19x10_1_2_0_01_n_n_wf

class Facts : Prop extends Facts₀ where

variable [Facts]
-- ==== Proof.SimSpec.lean ====
/-
  The prototype-similarity head as ONE function of its four argument arrays, index by index, on the extended reals.

  For an embedding row `n` and a prototype `(c, m)`, with `x, v : [131072, 256]` (embeddings and their variances) and
  `μ, σ² : [19, 10, 256]` (prototype means and variances), the result at `(n, c, m)` is

      -( (2 - 2 · ∑ₖ x[n,k] · μ[c,m,k])  +  λ · ( (∑ₖ v[n,k] + ∑ₖ σ²[c,m,k])  -  2 · ∑ₖ √v[n,k] · √σ²[c,m,k] ) )

  the negated squared 2-Wasserstein distance between diagonal Gaussians on the unit sphere, `λ` the float word of
  `1/256` and `2` the float word of `2.0` (both sides of the certificate carry the same two words, so neither is ever
  evaluated). The same scalar formula over a FLATTENED prototype axis `q = 10·c + m` — prototype means `[190, 256]`, the
  square roots of the prototype variances `[190, 256]` and their row sums `[1, 190]` already taken — is what the kernel's
  pipeline computes block by block; the last lemma says the flat form read at `(n, 10·c + m)` is the first at `(n, c, m)`.
-/
import Idealize.ShloMosaic.PureOps.Ideal
import Idealize.ShloMosaic.PureOps.Ideal.Laws
import Idealize.ShloMosaic.Lib.ValueIdx

noncomputable section

namespace Cert.ProtoSim

open Idealize.ShloMosaic Idealize.ShloMosaic.ValueIdx

/-- The float word of `2.0`, read at the extended reals. -/
abbrev two : EReal := Ideal.ofBits .f32 0x40000000#32
/-- The float word of `1/256`, read at the extended reals. -/
abbrev lam : EReal := Ideal.ofBits .f32 0x3B800000#32

/-- The scalar formula: from the inner product `d`, the two variance sums `sv` and `sp` and the cross term `cr`. -/
def head (d sv sp cr : EReal) : EReal := -((two - two * d) + lam * ((sv + sp) - two * cr))

/-- The similarity at `(n, c, m)` from the four argument arrays. -/
def sim (x v : (⟨2, ![131072, 256]⟩ : Shape).Idx → EReal) (mu s2 : (⟨3, ![19, 10, 256]⟩ : Shape).Idx → EReal) :
    (⟨3, ![131072, 19, 10]⟩ : Shape).Idx → EReal := fun i =>
  head (∑ k : Fin 256, x (ix2 (i 0) k) * mu (ix3 (i 1) (i 2) k))
    (∑ k : Fin 256, v (ix2 (i 0) k))
    (∑ k : Fin 256, s2 (ix3 (i 1) (i 2) k))
    (∑ k : Fin 256, Ideal.sqrt (v (ix2 (i 0) k)) * Ideal.sqrt (s2 (ix3 (i 1) (i 2) k)))

/-- The same over the flattened prototype axis: `muF` the prototype means, `rtF` the square roots of the prototype
    variances, `spF` the prototype variances' row sums, each indexed by `q = 10·c + m`. -/
def simFlat (x v : (⟨2, ![131072, 256]⟩ : Shape).Idx → EReal) (muF rtF : (⟨2, ![190, 256]⟩ : Shape).Idx → EReal)
    (spF : (⟨2, ![1, 190]⟩ : Shape).Idx → EReal) : (⟨2, ![131072, 190]⟩ : Shape).Idx → EReal := fun j =>
  head (∑ k : Fin 256, x (ix2 (j 0) k) * muF (ix2 (j 1) k))
    (∑ k : Fin 256, v (ix2 (j 0) k))
    (spF (ix2 (0 : Fin 1) (j 1)))
    (∑ k : Fin 256, Ideal.sqrt (v (ix2 (j 0) k)) * rtF (ix2 (j 1) k))

/-- Subtracting from zero is negation on the extended reals: the kernel ends in `0 - y`, the reference in `-y`. -/
theorem zero_sub_eq_neg (y : EReal) : (0 : EReal) - y = -y := zero_sub y

/-- The flat form at `(n, q)` is the three-axis form at `(n, c, m)` once the flat arrays are the three-axis ones read at
    `(c, m)` — stated with the three readings as hypotheses, so that it serves whatever `q` is known to be. -/
theorem simFlat_eq_sim (x v : (⟨2, ![131072, 256]⟩ : Shape).Idx → EReal) (mu s2 : (⟨3, ![19, 10, 256]⟩ : Shape).Idx → EReal)
    (muF rtF : (⟨2, ![190, 256]⟩ : Shape).Idx → EReal) (spF : (⟨2, ![1, 190]⟩ : Shape).Idx → EReal)
    (n : Fin 131072) (c : Fin 19) (m : Fin 10) (q : Fin 190)
    (hmu : ∀ k : Fin 256, muF (ix2 q k) = mu (ix3 c m k))
    (hrt : ∀ k : Fin 256, rtF (ix2 q k) = Ideal.sqrt (s2 (ix3 c m k)))
    (hsp : spF (ix2 (0 : Fin 1) q) = ∑ k : Fin 256, s2 (ix3 c m k)) :
    simFlat x v muF rtF spF (ix2 n q) = sim x v mu s2 (ix3 n c m) := by
  unfold simFlat sim
  show head (∑ k : Fin 256, x (ix2 n k) * muF (ix2 q k)) (∑ k : Fin 256, v (ix2 n k)) (spF (ix2 (0 : Fin 1) q))
      (∑ k : Fin 256, Ideal.sqrt (v (ix2 n k)) * rtF (ix2 q k))
    = head (∑ k : Fin 256, x (ix2 n k) * mu (ix3 c m k)) (∑ k : Fin 256, v (ix2 n k)) (∑ k : Fin 256, s2 (ix3 c m k))
      (∑ k : Fin 256, Ideal.sqrt (v (ix2 n k)) * Ideal.sqrt (s2 (ix3 c m k)))
  rw [hsp]
  simp only [hmu, hrt]

end Cert.ProtoSim

end
-- ==== Proof.BodyAtIndex.lean ====
/-
  The kernel body's stored value read at one index of its `[4096, 190]` output block, at the extended reals.

  The body loads a `[4096, 256]` block of embeddings `x0` and of their variances `x1`, the whole `[190, 256]` prototype
  means `x2` and square-rooted prototype variances `x3`, and the `[1, 190]` row of prototype variance sums `x4`. Its two
  matrix products contract the shared length-256 axis into a zero accumulator, so at `(p, q)` each is the plain sum
  `∑ₖ lhs[p,k] · rhs[q,k]` (a change of float format is the identity here); the lane reduction of `x1` at row `p` is
  `∑ₖ x1[p,k]`, kept as a column and spread over the 190 lanes; the row `x4` is spread over the 4096 rows. What is
  stored at `(p, q)` is therefore the scalar similarity formula of those four numbers, written `0 - (…)`.
-/
import proofs.«173762_j44478681317595_1_alg».proof.Proof.Gen.KernelIdeal.Skeleton
import proofs.«173762_j44478681317595_1_alg».proof.Proof.SimSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.ProtoSim

/-! ## The matrix product's operand indices, axis by axis -/

theorem lhs_axis0 (i : S4096x190.Idx) (r : dot_S4096x256_S190x256_S4096x190_1_1_0_0_n_n.contr.Idx) :
    (dot_S4096x256_S190x256_S4096x190_1_1_0_0_n_n.lhsIdx i r 0).val = (i 0).val := by
  unfold DotDims.lhsIdx
  rw [dif_neg (show ¬(0 : Fin S4096x256.rank) ∈ dot_S4096x256_S190x256_S4096x190_1_1_0_0_n_n.lhsBatch by decide), dif_pos (show (0 : Fin S4096x256.rank) ∈ dot_S4096x256_S190x256_S4096x190_1_1_0_0_n_n.lhsNonContracting by decide)]
  rfl
theorem lhs_axis1 (i : S4096x190.Idx) (r : dot_S4096x256_S190x256_S4096x190_1_1_0_0_n_n.contr.Idx) :
    (dot_S4096x256_S190x256_S4096x190_1_1_0_0_n_n.lhsIdx i r 1).val = (r ⟨0, by decide⟩).val :=
  dot_S4096x256_S190x256_S4096x190_1_1_0_0_n_n.lhsIdx_val_of_single rfl i r
theorem rhs_axis0 (i : S4096x190.Idx) (r : dot_S4096x256_S190x256_S4096x190_1_1_0_0_n_n.contr.Idx) :
    (dot_S4096x256_S190x256_S4096x190_1_1_0_0_n_n.rhsIdx i r 0).val = (i 1).val := by
  unfold DotDims.rhsIdx
  rw [dif_neg (show ¬(0 : Fin S190x256.rank) ∈ dot_S4096x256_S190x256_S4096x190_1_1_0_0_n_n.rhsBatch by decide), dif_pos (show (0 : Fin S190x256.rank) ∈ dot_S4096x256_S190x256_S4096x190_1_1_0_0_n_n.rhsNonContracting by decide)]
  rfl
theorem rhs_axis1 (i : S4096x190.Idx) (r : dot_S4096x256_S190x256_S4096x190_1_1_0_0_n_n.contr.Idx) :
    (dot_S4096x256_S190x256_S4096x190_1_1_0_0_n_n.rhsIdx i r 1).val = (r ⟨0, by decide⟩).val :=
  dot_S4096x256_S190x256_S4096x190_1_1_0_0_n_n.rhsIdx_val_of_single rfl i r

/-- A matrix product of a `[4096, 256]` by a `[190, 256]` operand over the shared second axis, into the zero accumulator,
    is at `(p, q)` the sum over `k` of `lhs[p,k] · rhs[q,k]`. -/
theorem matmul_at {φ₁ φ₂ : FTy} (lhs : FVec Ideal S4096x256 φ₁) (rhs : FVec Ideal S190x256 φ₂) (p : Fin 4096) (q : Fin 190) :
    matmul dot_S4096x256_S190x256_S4096x190_1_1_0_0_n_n none lhs rhs (constant (F := Ideal) S4096x190 .f32 0x00000000#32) (ix2 p q)
      = ∑ k : Fin 256, lhs (ix2 p k) * rhs (ix2 q k) := by
  simp only [matmul]
  rw [Ideal.matmul_constant_zero_apply, ← Equiv.sum_comp (ValueIdx.contrEquiv1 dot_S4096x256_S190x256_S4096x190_1_1_0_0_n_n 256 rfl rfl).symm]
  refine Finset.sum_congr rfl fun k _ => ?_
  have hk := ValueIdx.contrEquiv1_symm_val dot_S4096x256_S190x256_S4096x190_1_1_0_0_n_n 256 rfl rfl k
  have el : dot_S4096x256_S190x256_S4096x190_1_1_0_0_n_n.lhsIdx (ix2 p q) ((ValueIdx.contrEquiv1 dot_S4096x256_S190x256_S4096x190_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S4096x256_S190x256_S4096x190_1_1_0_0_n_n.rhsIdx (ix2 p q) ((ValueIdx.contrEquiv1 dot_S4096x256_S190x256_S4096x190_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-! ## The lane sum, kept as a column and spread over the lanes; the row spread over the rows -/

/-- The sum of a `[4096, 256]` block along its lanes is, at row `p`, `∑ₖ v[p,k]`. -/
theorem lanesum_at (v : FVec Ideal S4096x256 .f32) (h : S4096x256.Reduces [1] S4096) (hφ : FKind.Formats .f32)
    (hacc : (0x00000000#32 : BitVec 32) = 0x00000000#32) (p : Fin 4096) :
    multiReduction .add [1] S4096 v 0x00000000#32 h hφ hacc (ix1 p) = ∑ k : Fin 256, v (ix2 p k) :=
  (Ideal.multiReduction_add_single v _ h hφ hacc (ix1 p)).trans
    (Finset.sum_congr rfl fun k _ => congrArg v (funext fun a => Fin.ext (by match a with | ⟨0, _⟩ => rfl | ⟨1, _⟩ => rfl)))

/-- A length-4096 vector viewed as a `[4096, 1]` column reads, at `(p, 0)`, its entry `p`. -/
theorem column_at {α : Type} (u : S4096.Idx → α) (h : S4096.ShapeCasts S4096x1) (p : Fin 4096) (z : Fin 1) :
    shapeCast S4096x1 u h (ix2 p z) = u (ix1 p) := by
  refine shapeCast_apply u h (ix2 p z) (ix1 p) ?_
  rw [Shape.rowMajor_val_one, Shape.rowMajor_val_two]
  show p.val = p.val * 1 + z.val
  have := z.isLt; omega

/-- A `[4096, 1]` column spread over 190 lanes reads, at `(p, q)`, the column's entry `p`. -/
theorem spread_column_at {α : Type} (u : S4096x1.Idx → α) (h : S4096x1.Broadcasts S4096x190) (p : Fin 4096) (q : Fin 190) :
    broadcastTo S4096x190 u h (ix2 p q) = u (ix2 p (0 : Fin 1)) := by
  refine broadcastTo_apply u h (ix2 p q) (ix2 p (0 : Fin 1)) fun a => ?_
  match a with
  | ⟨0, _⟩ => show p.val = if (4096 : Nat) = 1 then 0 else p.val; rw [if_neg (by decide)]
  | ⟨1, _⟩ => show 0 = if (1 : Nat) = 1 then 0 else q.val; rw [if_pos rfl]

/-! ## The stored value at an index -/

/-- What the body stores at `(p, q)` of its output block: `0 - (…)` of the similarity formula's four numbers, read off
    the loaded blocks. -/
theorem stored_at (x0 x1 : Vec Ideal S4096x256 .f32) (x2 x3 : Vec Ideal S190x256 .f32) (x4 : Vec Ideal S1x190 .f32)
    (p : Fin 4096) (q : Fin 190) :
    k0_pay1 (F := Ideal) x0 x1 x2 x3 x4 (ix2 p q)
      = head (∑ k : Fin 256, x0 (ix2 p k) * x2 (ix2 q k)) (∑ k : Fin 256, x1 (ix2 p k)) (x4 (ix2 (0 : Fin 1) q))
          (∑ k : Fin 256, Ideal.sqrt (x1 (ix2 p k)) * x3 (ix2 q k)) := by
  unfold k0_pay1 head
  simp only [shapeCast_self]
  simp only [subf_apply, addf_apply, mulf_apply, broadcast_apply, Ideal.ofBits_def]
  rw [matmul_at, matmul_at, spread_column_at, column_at, lanesum_at, broadcastTo_1b_ab_apply]
  simp only [truncf_apply, Idealize.ShloMosaic.sqrt, Ideal.sqrt_def, Ideal.ofBits_zero_f32, zero_sub]

end Cert.KernelIdeal.Body

end
-- ==== Proof.WholeArray.lean ====
/-
  From the 32 grid points' blocks to the whole `[131072, 190]` array the kernel's region leaves behind.

  Point `t` works on rows `4096·t … 4096·t + 4095`: its two row-blocked inputs are those rows of the embeddings and of
  their variances, its three small inputs are fetched whole, and its output block is those rows of the result. So the
  entry `(p, q)` of what point `t` writes back is the flat similarity function of the region-entry arrays at row
  `4096·t + p`, lane `q`; every row lies in exactly the block of point `row / 4096`, so the blocks cover the array and the
  array after the region is that function everywhere.
-/
import proofs.«173762_j44478681317595_1_alg».proof.Proof.Gen.KernelIdeal.Frame
import proofs.«173762_j44478681317595_1_alg».proof.Proof.BodyAtIndex
import Idealize.ShloMosaic.Lib.Pipeline.Value

noncomputable section

namespace Cert.KernelIdeal.WholeArray

open Cert.KernelIdeal Cert.KernelIdeal.Gen Cert.KernelIdeal.Body Idealize.ShloMosaic Idealize.ShloMosaic.TcCoe Idealize.SL.Sem
open Idealize.ShloMosaic.ValueIdx Cert.ProtoSim
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps over the 32 grid points: the row-blocked windows (embeddings, variances, result) sit at
    block `t` of their first axis, the three small windows at block `0`; every second-axis block index is `0`. -/
theorem index_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is row `4096·t + p` of the array. -/
def row (t : Fin cfg0.N) (p : Fin 4096) : Fin 131072 :=
  ⟨t.val * 4096 + p.val, by have hN : grid0.N = 32 := N_0; have ht : t.val < grid0.N := t.isLt; have := p.isLt; omega⟩

/-! ## Where each window's block sits in its array -/

theorem emb_out (t : Fin cfg0.N) (p : Fin 4096) (q : Fin 190) :
    ((cfg0.win 5).blk t).view.emb (ix2 p q) = (ix2 (row t p) q : S131072x190.Idx) := by
  obtain ⟨-, -, -, -, -, -, -, -, -, -, e0, e1⟩ := index_facts t
  funext a; apply Fin.ext
  match a with
  | ⟨0, _⟩ => show win0_5.index t (0 : Fin 2) * 4096 + 1 * p.val = t.val * 4096 + p.val; omega
  | ⟨1, _⟩ => show win0_5.index t (1 : Fin 2) * 190 + 1 * q.val = q.val; omega

theorem emb_x (t : Fin cfg0.N) (p : Fin 4096) (k : Fin 256) :
    ((cfg0.win 0).blk t).view.emb (ix2 p k) = (ix2 (row t p) k : S131072x256.Idx) := by
  obtain ⟨e0, e1, -⟩ := index_facts t
  funext a; apply Fin.ext
  match a with
  | ⟨0, _⟩ => show win0_0.index t (0 : Fin 2) * 4096 + 1 * p.val = t.val * 4096 + p.val; omega
  | ⟨1, _⟩ => show win0_0.index t (1 : Fin 2) * 256 + 1 * k.val = k.val; omega

theorem emb_v (t : Fin cfg0.N) (p : Fin 4096) (k : Fin 256) :
    ((cfg0.win 1).blk t).view.emb (ix2 p k) = (ix2 (row t p) k : S131072x256.Idx) := by
  obtain ⟨-, -, e0, e1, -⟩ := index_facts t
  funext a; apply Fin.ext
  match a with
  | ⟨0, _⟩ => show win0_1.index t (0 : Fin 2) * 4096 + 1 * p.val = t.val * 4096 + p.val; omega
  | ⟨1, _⟩ => show win0_1.index t (1 : Fin 2) * 256 + 1 * k.val = k.val; omega

theorem emb_mu (t : Fin cfg0.N) (q : Fin 190) (k : Fin 256) :
    ((cfg0.win 2).blk t).view.emb (ix2 q k) = (ix2 q k : S190x256.Idx) := by
  obtain ⟨-, -, -, -, e0, e1, -⟩ := index_facts t
  funext a; apply Fin.ext
  match a with
  | ⟨0, _⟩ => show win0_2.index t (0 : Fin 2) * 190 + 1 * q.val = q.val; omega
  | ⟨1, _⟩ => show win0_2.index t (1 : Fin 2) * 256 + 1 * k.val = k.val; omega

theorem emb_rt (t : Fin cfg0.N) (q : Fin 190) (k : Fin 256) :
    ((cfg0.win 3).blk t).view.emb (ix2 q k) = (ix2 q k : S190x256.Idx) := by
  obtain ⟨-, -, -, -, -, -, e0, e1, -⟩ := index_facts t
  funext a; apply Fin.ext
  match a with
  | ⟨0, _⟩ => show win0_3.index t (0 : Fin 2) * 190 + 1 * q.val = q.val; omega
  | ⟨1, _⟩ => show win0_3.index t (1 : Fin 2) * 256 + 1 * k.val = k.val; omega

theorem emb_sp (t : Fin cfg0.N) (q : Fin 190) :
    ((cfg0.win 4).blk t).view.emb (ix2 (0 : Fin 1) q) = (ix2 (0 : Fin 1) q : S1x190.Idx) := by
  obtain ⟨-, -, -, -, -, -, -, -, e0, e1, -⟩ := index_facts t
  funext a; apply Fin.ext
  match a with
  | ⟨0, _⟩ => show win0_4.index t (0 : Fin 2) * 1 + 1 * 0 = 0; omega
  | ⟨1, _⟩ => show win0_4.index t (1 : Fin 2) * 190 + 1 * q.val = q.val; omega

/-! ## What a point writes back -/

/-- The five arrays the input windows stage, as the region finds them, each at its literal type. -/
abbrev arrX (c : Dev nD) : S131072x256.Idx → EReal := V m c main_arg0
abbrev arrV (c : Dev nD) : S131072x256.Idx → EReal := V m c main_arg1
abbrev arrMu (c : Dev nD) : S190x256.Idx → EReal := V m c main_v0
abbrev arrRt (c : Dev nD) : S190x256.Idx → EReal := V m c main_v2
abbrev arrSp (c : Dev nD) : S1x190.Idx → EReal := V m c main_v4

/-- Their blocks at point `t`, each at its literal type. -/
abbrev blkX (c : Dev nD) (t : Fin cfg0.N) : Vec Ideal S4096x256 .f32 := iblk m c 0 t
abbrev blkV (c : Dev nD) (t : Fin cfg0.N) : Vec Ideal S4096x256 .f32 := iblk m c 1 t
abbrev blkMu (c : Dev nD) (t : Fin cfg0.N) : Vec Ideal S190x256 .f32 := iblk m c 2 t
abbrev blkRt (c : Dev nD) (t : Fin cfg0.N) : Vec Ideal S190x256 .f32 := iblk m c 3 t
abbrev blkSp (c : Dev nD) (t : Fin cfg0.N) : Vec Ideal S1x190 .f32 := iblk m c 4 t

/-- Each block entry is the array's entry under it. -/
theorem blkX_at (c : Dev nD) (t : Fin cfg0.N) (p : Fin 4096) (k : Fin 256) :
    blkX m c t (ix2 p k) = arrX m c (ix2 (row t p) k) := by
  show arrX m c (((cfg0.win 0).blk t).view.emb (ix2 p k)) = _
  rw [emb_x]
theorem blkV_at (c : Dev nD) (t : Fin cfg0.N) (p : Fin 4096) (k : Fin 256) :
    blkV m c t (ix2 p k) = arrV m c (ix2 (row t p) k) := by
  show arrV m c (((cfg0.win 1).blk t).view.emb (ix2 p k)) = _
  rw [emb_v]
theorem blkMu_at (c : Dev nD) (t : Fin cfg0.N) (q : Fin 190) (k : Fin 256) :
    blkMu m c t (ix2 q k) = arrMu m c (ix2 q k) := by
  show arrMu m c (((cfg0.win 2).blk t).view.emb (ix2 q k)) = _
  rw [emb_mu]
theorem blkRt_at (c : Dev nD) (t : Fin cfg0.N) (q : Fin 190) (k : Fin 256) :
    blkRt m c t (ix2 q k) = arrRt m c (ix2 q k) := by
  show arrRt m c (((cfg0.win 3).blk t).view.emb (ix2 q k)) = _
  rw [emb_rt]
theorem blkSp_at (c : Dev nD) (t : Fin cfg0.N) (q : Fin 190) :
    blkSp m c t (ix2 (0 : Fin 1) q) = arrSp m c (ix2 (0 : Fin 1) q) := by
  show arrSp m c (((cfg0.win 4).blk t).view.emb (ix2 (0 : Fin 1) q)) = _
  rw [emb_sp]

/-- The flat similarity function of the region-entry arrays. -/
abbrev flatOf (c : Dev nD) : S131072x190.Idx → EReal :=
  simFlat (arrX m c) (arrV m c) (arrMu m c) (arrRt m c) (arrSp m c)

/-- The body's stored value at `(p, q)` of point `t`'s block is the flat similarity function at row `4096·t + p`, lane `q`. -/
theorem stored_eq_flat (c : Dev nD) (t : Fin cfg0.N) (p : Fin 4096) (q : Fin 190) :
    k0_pay1 (F := Ideal) (blkX m c t) (blkV m c t) (blkMu m c t) (blkRt m c t) (blkSp m c t) (ix2 p q)
      = flatOf m c (ix2 (row t p) q) := by
  refine (stored_at (blkX m c t) (blkV m c t) (blkMu m c t) (blkRt m c t) (blkSp m c t) p q).trans ?_
  simp only [blkX_at, blkV_at, blkMu_at, blkRt_at, blkSp_at]
  rfl

/-- WHAT POINT `t` WRITES BACK is block `t` of the flat similarity function of the region-entry arrays. -/
theorem flushed_eq (c : Dev nD) (t : Fin cfg0.N) :
    (dats m 0 c).flushed 5 t = ((cfg0.win 5).blk t).view.read (Elt Ideal) (flatOf m c) := by
  show (cfg0.win 5).cut (grid0.coords t) ((dats m 0 c).after 5 t) = _
  rw [after0_5]
  unfold out0_5
  rw [View.canon_unit_zero zero_offsets]
  simp only [View.ld_unit_zero (S := S4096x256) zero_offsets, View.ld_unit_zero (S := S190x256) zero_offsets,
    View.ld_unit_zero (S := S1x190) zero_offsets]
  refine funext fun (j : S4096x190.Idx) => ?_
  obtain ⟨p, q, rfl⟩ : ∃ (p : Fin 4096) (q : Fin 190), j = ix2 p q := ⟨j 0, j 1, eq_ix2 j⟩
  show k0_pay1 (F := Ideal) (blkX m c t) (blkV m c t) (blkMu m c t) (blkRt m c t) (blkSp m c t) (ix2 p q)
    = flatOf m c (((cfg0.win 5).blk t).view.emb (ix2 p q))
  rw [emb_out]
  exact stored_eq_flat m c t p q

/-! ## The blocks cover the array -/

/-- An index of the array is in point `t`'s block iff each coordinate is in the block's range on its axis. -/
theorem mem_blk (t : Fin cfg0.N) (i : S131072x190.Idx) :
    i ∈ ((cfg0.win 5).blk t).view.set ↔ ∀ a : Fin 2, win0_5.index t a * S4096x190.size a ≤ (i a).val ∧ (i a).val < win0_5.index t a * S4096x190.size a + S4096x190.size a := by
  show i ∈ ((View.whole main_v5).slice (win0_5.rect t)).set ↔ _
  rw [View.set_slice_whole, Rect.mem_set_unit]
  exact Iff.rfl

/-- Every index lies in the block of the point its row falls to. -/
theorem covered (i : S131072x190.Idx) :
    ∃ t : Fin cfg0.N, (cfg0.win 5).flush t = true ∧ i ∈ ((cfg0.win 5).blk t).view.set := by
  have hN : grid0.N = 32 := N_0
  have hi0 : (i 0).val < 131072 := (i 0).isLt
  have hi1 : (i 1).val < 190 := (i 1).isLt
  let t : Fin cfg0.N := ⟨(i 0).val / 4096, by show (i 0).val / 4096 < grid0.N; omega⟩
  obtain ⟨-, -, -, -, -, -, -, -, -, -, e0, e1⟩ := index_facts t
  have ht : t.val = (i 0).val / 4096 := rfl
  refine ⟨t, flush0_5 t, ?_⟩
  rw [mem_blk]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 190 ≤ (i 1).val ∧ (i 1).val < win0_5.index t (1 : Fin 2) * 190 + 190; omega

/-- THE ARRAY after the region: the flat similarity function of the region-entry arrays. -/
theorem final (c : Dev nD) : (dats m 0 c).arrAt 5 cfg0.N = flatOf m c :=
  (dats m 0 c).arrAt_eq_of_cover 5 (flatOf m c) (fun t _ => flushed_eq m c t) covered

end Cert.KernelIdeal.WholeArray

end
-- ==== Proof.KernelResult.lean ====
/-
  The kernel program's result as the similarity function of its four argument arrays.

  Before the region, @main flattens the prototype axes `(c, m) ↦ q = 10·c + m` of both prototype arrays, takes the square
  root of the flattened variances, and sums the flattened variances along their last axis into a `[1, 190]` row; the
  region then leaves the flat similarity function of those (the whole-array lemma); after it @main views the
  `[131072, 190]` array as `[131072, 19, 10]`. A reshape keeps row-major positions, and `(n·19 + c)·10 + m = n·190 + (10·c + m)`,
  so the result at `(n, c, m)` is the flat function at `(n, 10·c + m)`, which is the three-axis similarity at `(n, c, m)`.
-/
import proofs.«173762_j44478681317595_1_alg».proof.Proof.WholeArray
import Idealize.ShloMosaic.Lib.StableHlo.Run
import Idealize.ShloMosaic.Lib.ValueLayout

noncomputable section

namespace Cert.KernelIdeal.Result

open Cert.KernelIdeal Cert.KernelIdeal.Gen Cert.KernelIdeal.WholeArray Idealize.ShloMosaic Idealize.ShloMosaic.TcCoe Idealize.SL.Sem
open Idealize.ShloMosaic.ValueIdx Idealize.ShloMosaic.StableHlo Cert.ProtoSim

variable (m : (ℓ : Loc nD τ sig) → Buf (Elt Ideal) ℓ)

/-- The four argument arrays as launched, each at its literal type. -/
abbrev argX (c : Dev nD) : FVec Ideal S131072x256 .f32 := m ((c : Thread nD τ).loc main_arg0)
abbrev argV (c : Dev nD) : FVec Ideal S131072x256 .f32 := m ((c : Thread nD τ).loc main_arg1)
abbrev argMu (c : Dev nD) : FVec Ideal S19x10x256 .f32 := m ((c : Thread nD τ).loc main_arg2)
abbrev argS2 (c : Dev nD) : FVec Ideal S19x10x256 .f32 := m ((c : Thread nD τ).loc main_arg3)

/-! ## The arrays the host operations before the region write -/

/-- The flattened prototype means. -/
theorem V_mu (c : Dev nD) : arrMu m c = shapeCast S190x256 (argMu m c) shapeCasts_S19x10x256_S190x256 := by
  show StableHlo.after hostOps0 (fun b => m (c, b)) (Proc.devRef .tc main_v0) = _
  after_results
  rfl

/-- The square roots of the flattened prototype variances. -/
theorem V_rt (c : Dev nD) : arrRt m c = Host.sqrt (F := Ideal) (shapeCast S190x256 (argS2 m c) shapeCasts_S19x10x256_S190x256) := by
  show StableHlo.after hostOps0 (fun b => m (c, b)) (Proc.devRef .tc main_v2) = _
  after_results
  rfl

/-- The flattened prototype variances' sums along the last axis, as a row. -/
theorem V_sp (c : Dev nD) : arrSp m c
    = shapeCast S1x190 (Host.reduceAdd (F := Ideal) (shapeCast S190x256 (argS2 m c) shapeCasts_S19x10x256_S190x256)
        (constant (F := Ideal) S_ .f32 0x00000000#32) reducesTo_S190x256_S190_d1 h_S_) shapeCasts_S190_S1x190 := by
  show StableHlo.after hostOps0 (fun b => m (c, b)) (Proc.devRef .tc main_v4) = _
  after_results
  rfl

/-! ## Those arrays read at an index -/

/-- A `[19, 10, 256]` array flattened to `[190, 256]` reads, at `(10·c + m, k)`, the operand at `(c, m, k)`. -/
theorem flatten_at {α : Type} (y : S19x10x256.Idx → α) (h : S19x10x256.ShapeCasts S190x256) (c : Fin 19) (mm : Fin 10) (q : Fin 190)
    (hq : q.val = c.val * 10 + mm.val) (k : Fin 256) : shapeCast S190x256 y h (ix2 q k) = y (ix3 c mm k) := by
  refine shapeCast_apply y h (ix2 q k) (ix3 c mm k) ?_
  rw [Shape.rowMajor_val_three, Shape.rowMajor_val_two]
  show (c.val * 10 + mm.val) * 256 + k.val = q.val * 256 + k.val
  rw [hq]

/-- The host's sum of a `[190, 256]` array along its last axis from the zero word is, at `q`, `∑ₖ y[q,k]`. -/
theorem hostsum_at (y : FVec Ideal S190x256 .f32) (q : Fin 190) :
    Host.reduceAdd (F := Ideal) y (constant (F := Ideal) S_ .f32 0x00000000#32) reducesTo_S190x256_S190_d1 h_S_ (ix1 q)
      = ∑ k : Fin 256, y (ix2 q k) := by
  simp only [Host.reduceAdd, Ideal.hostReduceAdd_def]
  rw [Ideal.hostReduceAdd_single reducesTo_S190x256_S190_d1 (by decide), constant_apply, Ideal.ofBits_zero_f32, zero_add]
  exact Finset.sum_congr rfl fun k _ => congrArg y (funext fun a => Fin.ext (by match a with | ⟨0, _⟩ => rfl | ⟨1, _⟩ => rfl))

/-- The three prototype-side arrays at lane `q = 10·c + m`, from the prototype arguments at `(c, m)`. -/
theorem arrMu_at (c : Dev nD) (cc : Fin 19) (mm : Fin 10) (q : Fin 190) (hq : q.val = cc.val * 10 + mm.val) (k : Fin 256) :
    arrMu m c (ix2 q k) = argMu m c (ix3 cc mm k) := by
  rw [V_mu]; exact flatten_at _ _ cc mm q hq k
theorem arrRt_at (c : Dev nD) (cc : Fin 19) (mm : Fin 10) (q : Fin 190) (hq : q.val = cc.val * 10 + mm.val) (k : Fin 256) :
    arrRt m c (ix2 q k) = Ideal.sqrt (argS2 m c (ix3 cc mm k)) := by
  rw [V_rt]
  show Ideal.sqrt (shapeCast S190x256 (argS2 m c) shapeCasts_S19x10x256_S190x256 (ix2 q k)) = _
  rw [flatten_at _ _ cc mm q hq k]
theorem arrSp_at (c : Dev nD) (cc : Fin 19) (mm : Fin 10) (q : Fin 190) (hq : q.val = cc.val * 10 + mm.val) :
    arrSp m c (ix2 (0 : Fin 1) q) = ∑ k : Fin 256, argS2 m c (ix3 cc mm k) := by
  rw [V_sp, shapeCast_a_1a_apply, hostsum_at]
  exact Finset.sum_congr rfl fun k _ => flatten_at _ _ cc mm q hq k

/-! ## After the region -/

/-- The flat similarity function over the arguments as launched: no host operation before the region writes the two
    row-blocked arguments. -/
theorem flat_args (c : Dev nD) : flatOf m c = simFlat (argX m c) (argV m c) (arrMu m c) (arrRt m c) (arrSp m c) := by
  show simFlat (arrX m c) (arrV m c) (arrMu m c) (arrRt m c) (arrSp m c) = _
  rw [show arrX m c = argX m c from V_main_arg0 m c, show arrV m c = argV m c from V_main_arg1 m c]

/-- The result buffer after the reshape that follows the region: the region's output array viewed `[131072, 19, 10]`. -/
theorem tail_eq (c : Dev nD) :
    (Pipeline.afterTail₀ cfgs (dats m) 0 (V0 m) [hostOps1] c main_v6 : S131072x19x10.Idx → EReal)
      = shapeCast S131072x19x10 ((dats m 0 c).arrAt 5 cfg0.N : S131072x190.Idx → EReal) shapeCasts_S131072x190_S131072x19x10 := by
  unfold Pipeline.afterTail₀
  show StableHlo.after hostOps1 _ (Proc.devRef .tc main_v6) = _
  after_results
  exact congrArg (fun a : S131072x190.Idx → EReal => shapeCast S131072x19x10 a shapeCasts_S131072x190_S131072x19x10)
    (Pipeline.withArrays_arr spec0 launch0.win.arr_inj c (V0 m c) (fun w => (dats m 0 c).arrAt w cfg0.N) 5)

/-- THE RESULT: what @main's result buffer holds after the run is the similarity function of the four arguments. -/
theorem result_eq (c : Dev nD) :
    (Pipeline.afterTail₀ cfgs (dats m) 0 (V0 m) [hostOps1] c main_v6 : S131072x19x10.Idx → EReal)
      = sim (argX m c) (argV m c) (argMu m c) (argS2 m c) := by
  rw [tail_eq, final, flat_args]
  funext i
  obtain ⟨n, cc, mm, rfl⟩ : ∃ (n : Fin 131072) (cc : Fin 19) (mm : Fin 10), i = ix3 n cc mm := ⟨i 0, i 1, i 2, eq_ix3 i⟩
  have hq : cc.val * 10 + mm.val < 190 := by have := cc.isLt; have := mm.isLt; omega
  refine (shapeCast_apply _ shapeCasts_S131072x190_S131072x19x10 (ix3 n cc mm) (ix2 n (⟨cc.val * 10 + mm.val, hq⟩ : Fin 190)) ?_).trans ?_
  · rw [Shape.rowMajor_val_two, Shape.rowMajor_val_three]
    show n.val * 190 + (cc.val * 10 + mm.val) = (n.val * 19 + cc.val) * 10 + mm.val
    omega
  · exact simFlat_eq_sim _ _ (argMu m c) (argS2 m c) _ _ _ n cc mm ⟨_, hq⟩ (arrMu_at m c cc mm _ rfl) (arrRt_at m c cc mm _ rfl)
      (arrSp_at m c cc mm _ rfl)

/-! ## The run -/

variable (ρ : Dev nD → PrngReg)

/-- Every weakly fair execution of the kernel program terminates with the result buffer at the similarity function of
    the arguments as launched, and the arguments unchanged: the frame run, its post read at the result buffer (which
    bypasses the region and is written by the reshape after it) and at the four arguments. -/
theorem run : θ_run defs (onTc (τ := τ) (main (F := Ideal))) ⟨m, fun _ => 0, ρ⟩ fun r => ∀ c : Dev nD,
      r.2.mem ((c.tc : Thread nD τ).loc main_v6) = sim (argX m c) (argV m c) (argMu m c) (argS2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      ((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.RefIsSim.lean ====
/-
  The reference program computes the similarity function `Cert.ProtoSim.sim` of its four arguments.

  Its last stage, read one operation at a time at an index `(n, c, m)`: the two contractions over the length-256 axis are
  the sums `∑ₖ x[n,k] · μ[c,m,k]` and `∑ₖ √v[n,k] · √σ²[c,m,k]`; the two reductions start from the zero word, which is
  the number `0`, so they are the plain sums `∑ₖ v[n,k]` and `∑ₖ σ²[c,m,k]`, each spread back over the missing axes;
  the scalar constants are spread over the whole result. What remains is the scalar formula, ending in a negation.
-/
import proofs.«173762_j44478681317595_1_alg».proof.Proof.Gen.ReferenceIdeal.Read
import proofs.«173762_j44478681317595_1_alg».proof.Proof.SimSpec

noncomputable section

namespace Cert.ReferenceIdeal.RefValue

open Cert.ReferenceIdeal Cert.ReferenceIdeal.Read Idealize.ShloMosaic Idealize.ShloMosaic.ValueIdx Cert.ProtoSim

/-! ## The operand indices the stages read, as coordinates -/

theorem lidx_v0 (n : Fin 131072) (c : Fin 19) (m : Fin 10) (k : Fin 256) : lidx_main_v0 (ix3 n c m) k = ix2 n k :=
  funext fun a => Fin.ext (by match a with | ⟨0, _⟩ => rfl | ⟨1, _⟩ => rfl)
theorem ridx_v0 (n : Fin 131072) (c : Fin 19) (m : Fin 10) (k : Fin 256) : ridx_main_v0 (ix3 n c m) k = ix3 c m k :=
  funext fun a => Fin.ext (by match a with | ⟨0, _⟩ => rfl | ⟨1, _⟩ => rfl | ⟨2, _⟩ => rfl)
theorem lidx_v3 (n : Fin 131072) (c : Fin 19) (m : Fin 10) (k : Fin 256) : lidx_main_v3 (ix3 n c m) k = ix2 n k :=
  funext fun a => Fin.ext (by match a with | ⟨0, _⟩ => rfl | ⟨1, _⟩ => rfl)
theorem ridx_v3 (n : Fin 131072) (c : Fin 19) (m : Fin 10) (k : Fin 256) : ridx_main_v3 (ix3 n c m) k = ix3 c m k :=
  funext fun a => Fin.ext (by match a with | ⟨0, _⟩ => rfl | ⟨1, _⟩ => rfl | ⟨2, _⟩ => rfl)
theorem idx_rowsum (n : Fin 131072) (c : Fin 19) (m : Fin 10) (k : Fin 256) :
    idx_main_v4 (idx_main_v5 (idx_main_v8 (ix3 n c m))) k = ix2 n k :=
  funext fun a => Fin.ext (by match a with | ⟨0, _⟩ => rfl | ⟨1, _⟩ => rfl)
theorem idx_protosum (n : Fin 131072) (c : Fin 19) (m : Fin 10) (k : Fin 256) :
    idx_main_v6 (idx_main_v7 (idx_main_v9 (ix3 n c m))) k = ix3 c m k :=
  funext fun a => Fin.ext (by match a with | ⟨0, _⟩ => rfl | ⟨1, _⟩ => rfl | ⟨2, _⟩ => rfl)

/-! ## The reference's last stage is the similarity function -/

theorem ref_eq_sim (x0 x1 : (⟨S131072x256, .f32⟩ : BufTy).Contents (Elt Ideal)) (x2 x3 : (⟨S19x10x256, .f32⟩ : BufTy).Contents (Elt Ideal)) :
    val_main_v21 (F := Ideal) x0 x1 x2 x3 = sim x0 x1 x2 x3 := by
  funext i
  obtain ⟨n, c, m, rfl⟩ : ∃ (n : Fin 131072) (c : Fin 19) (m : Fin 10), i = ix3 n c m := ⟨i 0, i 1, i 2, eq_ix3 i⟩
  rw [val_main_v21_apply, val_main_v20_apply, val_main_v17_apply, val_main_v16_apply, val_main_cst_3_apply,
    val_main_v15_apply, val_main_v14_apply, val_main_cst_2_apply, val_main_v0_apply, val_main_v19_apply, val_main_v18_apply,
    val_main_cst_4_apply, val_main_v13_apply, val_main_v10_apply, val_main_v8_apply, val_main_v5_apply, val_main_v4_apply,
    val_main_cst_apply, val_main_v9_apply, val_main_v7_apply, val_main_v6_apply, val_main_cst_0_apply, val_main_v12_apply,
    val_main_v11_apply, val_main_cst_1_apply, val_main_v3_apply]
  simp only [val_main_v1_apply, val_main_v2_apply, lidx_v0, ridx_v0, lidx_v3, ridx_v3, idx_rowsum, idx_protosum,
    Ideal.hostNegf_def, Ideal.negf_def, Ideal.addf_def, Ideal.subf_def, Ideal.mulf_def, Ideal.ofBits_def,
    Ideal.hostUnary_sqrt_def, Ideal.ofBits_zero_f32, zero_add]
  rfl

end Cert.ReferenceIdeal.RefValue

end
-- ==== Proof.lean ====
/-
  The certificate: the prototype-similarity kernel and its jnp reference compute one function over the extended reals.

  For embeddings `x` and their variances `v` (both `[131072, 256]`) and prototype means `μ` and variances `σ²` (both
  `[19, 10, 256]`) the result at `(n, c, m)` is

      -( (2 - 2 · ∑ₖ x[n,k] · μ[c,m,k])  +  (1/256) · ( (∑ₖ v[n,k] + ∑ₖ σ²[c,m,k])  -  2 · ∑ₖ √v[n,k] · √σ²[c,m,k] ) ).

  The kernel flattens the prototype axes on the host, takes `√σ²` and `∑ₖ σ²` there, and in each of 32 row blocks
  computes the two inner products as matrix products over the shared axis, the row sum of `v` as a lane reduction, and
  the scalar formula lane by lane, ending in `0 - y`; the reference contracts and reduces the three-axis arrays directly
  and ends in `-y`. At the extended reals a change of float format is the identity, a matrix product into a zero
  accumulator and a host contraction are the same sum, a lane reduction and a host reduction from `0` are the same sum,
  both square roots are one function, and `0 - y = -y`: the two sides agree term by term, with no law that would need
  the inputs finite. The constants `2` and `1/256` are the same float words on both sides.

  The two word-level and idealized kernel frames are the generated ones; the reference's frame is its generated run
  with the result dropped; the idealization rewrote nothing, so `preserves` is `True`.
-/
import proofs.«173762_j44478681317595_1_alg».proof.Defs
import proofs.«173762_j44478681317595_1_alg».proof.Proof.Gen.Kernel
import proofs.«173762_j44478681317595_1_alg».proof.Proof.Gen.Kernel.Skeleton
import proofs.«173762_j44478681317595_1_alg».proof.Proof.Gen.Kernel.Launch
import proofs.«173762_j44478681317595_1_alg».proof.Proof.Gen.Kernel.Points
import proofs.«173762_j44478681317595_1_alg».proof.Proof.Gen.Kernel.Frame
import proofs.«173762_j44478681317595_1_alg».proof.Proof.Gen.KernelIdeal
import proofs.«173762_j44478681317595_1_alg».proof.Proof.Gen.KernelIdeal.Skeleton
import proofs.«173762_j44478681317595_1_alg».proof.Proof.Gen.KernelIdeal.Launch
import proofs.«173762_j44478681317595_1_alg».proof.Proof.Gen.KernelIdeal.Points
import proofs.«173762_j44478681317595_1_alg».proof.Proof.Gen.KernelIdeal.Frame
import proofs.«173762_j44478681317595_1_alg».proof.Proof.Gen.ReferenceIdeal
import proofs.«173762_j44478681317595_1_alg».proof.Proof.Gen.Pre_finite_inputs
import proofs.«173762_j44478681317595_1_alg».proof.Proof.Gen.ReferenceIdeal.Run
import proofs.«173762_j44478681317595_1_alg».proof.Proof.Gen.ReferenceIdeal.Read
import proofs.«173762_j44478681317595_1_alg».proof.Proof.KernelResult
import proofs.«173762_j44478681317595_1_alg».proof.Proof.RefIsSim
import Idealize.ShloMosaic.Adequacy
import Idealize.ShloMosaic.Init

noncomputable section

namespace Cert.Proof

open Idealize.ShloMosaic Idealize.SL.Sem

/-- The word-level kernel runs and keeps its arguments: the generated frame. -/
theorem frame_k : @Cert.frame_Kernel Cert.Kernel.Gen.facts Cert.Pre_finite_inputs.Gen.facts :=
  fun m ρ _ => Cert.Kernel.Gen.frame m ρ

/-- The idealized kernel runs and keeps its arguments: the generated frame. -/
theorem frame_ki : @Cert.frame_KernelIdeal Cert.KernelIdeal.Gen.facts Cert.Pre_finite_inputs.Gen.facts :=
  fun m ρ _ => Cert.KernelIdeal.Gen.frame m ρ

/-- The reference runs and keeps its arguments: its generated run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the arguments both programs end with the similarity function of those arguments in their
    result buffers: the kernel by its run read back through the region and the host operations around it, the
    reference by its run read one operation at a time. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq_sim,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
